-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x128 : Shape := ⟨2, ![100000, 128]⟩
abbrev S2000x256 : Shape := ⟨2, ![2000, 256]⟩
abbrev S2000x128 : Shape := ⟨2, ![2000, 128]⟩
abbrev S1600000x128 : Shape := ⟨2, ![1600000, 128]⟩
abbrev S100000x1 : Shape := ⟨2, ![100000, 1]⟩
abbrev S2000x1 : Shape := ⟨2, ![2000, 1]⟩

abbrev nBuf : Space → Nat
  | .hbm => 111
  | .vmem => 36
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S1x128, .f32⟩
  | .hbm, ⟨26, _⟩ => ⟨S100000x128, .f32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000x1, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S1x128, .f32⟩
  | .hbm, ⟨68, _⟩ => ⟨S100000x128, .f32⟩
  | .hbm, ⟨69, _⟩ => ⟨S_, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000, .f32⟩
  | .hbm, ⟨91, _⟩ => ⟨S1600000, .f32⟩
  | .hbm, ⟨92, _⟩ => ⟨S1600000x1, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x128, .f32⟩
  | .hbm, ⟨102, _⟩ => ⟨S1600000x128, .f32⟩
  | .hbm, ⟨103, _⟩ => ⟨S1600000x128, .f32⟩
  | .hbm, ⟨104, _⟩ => ⟨S_, .f32⟩
  | .hbm, ⟨105, _⟩ => ⟨S100000x128, .f32⟩
  | .hbm, ⟨106, _⟩ => ⟨S1600000x1, .i32⟩
  | .hbm, ⟨107, _⟩ => ⟨S100000x128, .f32⟩
  | .hbm, ⟨108, _⟩ => ⟨S100000x1, .f32⟩
  | .hbm, ⟨109, _⟩ => ⟨S1x128, .f32⟩
  | .hbm, ⟨110, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_c_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S128 : S_.BroadcastsInDim S128 (![] : Fin 0 → Fin S128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  scatter_S100000_S1600000x1_S1600000_n_0_0_1_wf : ScatterDims.WF S100000 S1600000x1 S1600000 [] [0] [0] 1
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .f32 = 32 ∨ (Rect.block (s := S100000x128) S2000x128.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1x128 : Shape := ⟨2, ![1, 128]⟩
abbrev S1600000x128 : Shape := ⟨2, ![1600000, 128]⟩
abbrev S100000x1 : Shape := ⟨2, ![100000, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000, .f32⟩
  | .hbm, ⟨94, _⟩ => ⟨S1600000, .f32⟩
  | .hbm, ⟨95, _⟩ => ⟨S1600000x1, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x128, .f32⟩
  | .hbm, ⟨105, _⟩ => ⟨S1600000x128, .f32⟩
  | .hbm, ⟨106, _⟩ => ⟨S1600000x128, .f32⟩
  | .hbm, ⟨107, _⟩ => ⟨S_, .f32⟩
  | .hbm, ⟨108, _⟩ => ⟨S100000x128, .f32⟩
  | .hbm, ⟨109, _⟩ => ⟨S1600000x1, .i32⟩
  | .hbm, ⟨110, _⟩ => ⟨S100000x128, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S100000x128, .f32⟩
  | .hbm, ⟨115, _⟩ => ⟨S1x128, .f32⟩
  | .hbm, ⟨116, _⟩ => ⟨S100000x128, .f32⟩
  | .hbm, ⟨117, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call0_cst : Ref sig .tc := ⟨.hbm, 72, rfl⟩
abbrev main_call0_v0 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_13 : Ref sig .tc := ⟨.hbm, 96, rfl⟩
abbrev main_v71 : Ref sig .tc := ⟨.hbm, 97, rfl⟩
abbrev main_v72 : Ref sig .tc := ⟨.hbm, 98, rfl⟩
abbrev main_c_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The layers of the network as functions of whole arrays, entry by entry, on the extended reals.

  A dense layer sends a matrix x of n rows and k columns, a weight matrix W of k rows and b columns and a bias row β
  to the matrix whose entry (p, q) is  ∑ κ < k, x (p, κ) · W (κ, q)  +  β (0, q).
  A graph-convolution layer ends by combining three matrices of n rows and b columns entry by entry: the messages
  summed at each node, agg (p, q); the node's own features scaled by the reciprocal of its degree, z (p, q) · δ (p, 0),
  δ a column; and the bias row, β (0, q).  The first layer then takes the larger of that and zero.
-/
import Idealize.ShloMosaic.Lib.ValueIdx
import Idealize.ShloMosaic.PureOps.Ideal.Laws

noncomputable section

namespace Cert.Gcn

open Idealize.ShloMosaic Idealize.ShloMosaic.ValueIdx

variable {n k b : ℕ}

/-- A dense layer: row p of x against column q of W, plus entry q of the bias row. -/
def affineRow (x : (⟨2, ![n, k]⟩ : Shape).Idx → EReal) (W : (⟨2, ![k, b]⟩ : Shape).Idx → EReal)
    (β : (⟨2, ![1, b]⟩ : Shape).Idx → EReal) : (⟨2, ![n, b]⟩ : Shape).Idx → EReal :=
  fun i => (∑ κ : Fin k, x (ix2 (i 0) κ) * W (ix2 κ (i 1))) + β (ix2 (0 : Fin 1) (i 1))

theorem affineRow_apply (x : (⟨2, ![n, k]⟩ : Shape).Idx → EReal) (W : (⟨2, ![k, b]⟩ : Shape).Idx → EReal)
    (β : (⟨2, ![1, b]⟩ : Shape).Idx → EReal) (p : Fin n) (q : Fin b) :
    affineRow x W β (ix2 p q) = (∑ κ : Fin k, x (ix2 p κ) * W (ix2 κ q)) + β (ix2 (0 : Fin 1) q) := rfl

/-- With a bias row of zeros the dense layer is the matrix product alone: adding zero changes no extended real. -/
theorem affineRow_zero (x : (⟨2, ![n, k]⟩ : Shape).Idx → EReal) (W : (⟨2, ![k, b]⟩ : Shape).Idx → EReal)
    (β : (⟨2, ![1, b]⟩ : Shape).Idx → EReal) (hβ : ∀ q : Fin b, β (ix2 (0 : Fin 1) q) = 0) (p : Fin n) (q : Fin b) :
    affineRow x W β (ix2 p q) = ∑ κ : Fin k, x (ix2 p κ) * W (ix2 κ q) := by
  rw [affineRow_apply, hβ, add_zero]

/-- The end of a graph-convolution layer: messages, plus the node's own features over its degree, plus the bias. -/
def combine (agg z : (⟨2, ![n, b]⟩ : Shape).Idx → EReal) (δ : (⟨2, ![n, 1]⟩ : Shape).Idx → EReal)
    (β : (⟨2, ![1, b]⟩ : Shape).Idx → EReal) : (⟨2, ![n, b]⟩ : Shape).Idx → EReal :=
  fun i => (agg i + z i * δ (ix2 (i 0) (0 : Fin 1))) + β (ix2 (0 : Fin 1) (i 1))

theorem combine_apply (agg z : (⟨2, ![n, b]⟩ : Shape).Idx → EReal) (δ : (⟨2, ![n, 1]⟩ : Shape).Idx → EReal)
    (β : (⟨2, ![1, b]⟩ : Shape).Idx → EReal) (p : Fin n) (q : Fin b) :
    combine agg z δ β (ix2 p q) = (agg (ix2 p q) + z (ix2 p q) * δ (ix2 p (0 : Fin 1))) + β (ix2 (0 : Fin 1) q) := rfl

/-- The same followed by the rectifier: the larger of the entry and the value of the zero word. -/
def combineRelu (agg z : (⟨2, ![n, b]⟩ : Shape).Idx → EReal) (δ : (⟨2, ![n, 1]⟩ : Shape).Idx → EReal)
    (β : (⟨2, ![1, b]⟩ : Shape).Idx → EReal) : (⟨2, ![n, b]⟩ : Shape).Idx → EReal :=
  fun i => max (combine agg z δ β i) (Ideal.ofBits .f32 0x00000000#32)

theorem combineRelu_apply (agg z : (⟨2, ![n, b]⟩ : Shape).Idx → EReal) (δ : (⟨2, ![n, 1]⟩ : Shape).Idx → EReal)
    (β : (⟨2, ![1, b]⟩ : Shape).Idx → EReal) (p : Fin n) (q : Fin b) :
    combineRelu agg z δ β (ix2 p q)
      = max ((agg (ix2 p q) + z (ix2 p q) * δ (ix2 p (0 : Fin 1))) + β (ix2 (0 : Fin 1) q)) (Ideal.ofBits .f32 0x00000000#32) := rfl

end Cert.Gcn

end
-- ==== Proof.HostChain.lean ====
/-
  The parts of the computation both programs leave to the host, as functions of whole arrays: the two rows of the edge
  list, each node's degree (one for itself plus one per edge that ends at it), its inverse square root and its
  reciprocal, and the aggregation of a feature matrix over the edges — each edge carries the features of its source
  node, scaled by the product of the two endpoints' inverse square-root degrees, to its destination node, where
  they are summed.  Also the two layouts a vector takes on its way into a layer: a row and a column.
-/
import proofs.«134892_j82660940579213_1_alg».proof.KernelIdeal

noncomputable section

namespace Cert.KernelIdeal.Hand

open Cert.KernelIdeal Idealize.ShloMosaic
open Cert.KernelIdeal.Facts₀ Cert.KernelIdeal.Facts

variable {F : FTy → Type} [FloatOps F] [Facts]

/-- The edges' source nodes: row 0 of the edge list. -/
def srcOf (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edges' destination nodes: row 1 of the edge list. -/
def dstOf (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- Each node's degree with its self-loop: one per edge that ends at it, summed from zero, plus one. -/
def degOf (dst : (⟨S1600000, .i32⟩ : BufTy).Contents (Elt F)) : (⟨S100000, .f32⟩ : BufTy).Contents (Elt F) :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The inverse square root of a degree vector. -/
def normOf (deg : (⟨S100000, .f32⟩ : BufTy).Contents (Elt F)) : (⟨S100000, .f32⟩ : BufTy).Contents (Elt F) :=
  Host.rsqrt deg

/-- One over a degree vector. -/
def dinvOf (deg : (⟨S100000, .f32⟩ : BufTy).Contents (Elt F)) : (⟨S100000, .f32⟩ : BufTy).Contents (Elt F) :=
  Host.divf (broadcastInDim S100000 ![] bcast_S_S100000 (constant S_ .f32 0x3F800000#32)) deg

/-- A node index as the gather takes it: a negative one moved up by the number of nodes, in a column. -/
def wrapIx (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Each edge's coefficient: the product of its endpoints' inverse square-root degrees. -/
def coefOf (src dst : (⟨S1600000, .i32⟩ : BufTy).Contents (Elt F)) (norm : (⟨S100000, .f32⟩ : BufTy).Contents (Elt F)) :
    (⟨S1600000, .f32⟩ : BufTy).Contents (Elt F) :=
  mulf (Host.gather gather_S100000_S1600000x1_S1600000_n_0_n_n_0_1_1 norm (wrapIx src))
    (Host.gather gather_S100000_S1600000x1_S1600000_n_0_n_n_0_1_1 norm (wrapIx dst))

/-- The aggregation: every edge's scaled source features summed, from zero, at its destination node. -/
def aggOf (src dst : (⟨S1600000, .i32⟩ : BufTy).Contents (Elt F)) (norm : (⟨S100000, .f32⟩ : BufTy).Contents (Elt F))
    (z : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (broadcastInDim S1600000x128 ![0, 1] bcast_S1600000x1_S1600000x128_0_1
        (broadcastInDim S1600000x1 ![0] bcast_S1600000_S1600000x1_0 (coefOf src dst norm)))
      (Host.gather gather_S100000x128_S1600000x1_S1600000x128_1_0_n_n_0_1_1128 z (wrapIx src)))

/-- A vector of 128 entries laid out as a row. -/
def rowOf (v : (⟨S128, .f32⟩ : BufTy).Contents (Elt F)) : (⟨S1x128, .f32⟩ : BufTy).Contents (Elt F) :=
  shapeCast _ v shapeCasts_S128_S1x128

/-- A vector with one entry per node laid out as a column. -/
def colOf (v : (⟨S100000, .f32⟩ : BufTy).Contents (Elt F)) : (⟨S100000x1, .f32⟩ : BufTy).Contents (Elt F) :=
  shapeCast _ v shapeCasts_S100000_S100000x1

/-- The row of 128 zeros. -/
def zeroRow : (⟨S1x128, .f32⟩ : BufTy).Contents (Elt F) :=
  rowOf (broadcastInDim S128 ![] bcast_S_S128 (constant S_ .f32 0x00000000#32))

end Cert.KernelIdeal.Hand

end
-- ==== Proof.Network.lean ====
/-
  The whole network as one function of its eight arguments, on the extended reals: a dense layer on the node
  features, then two graph-convolution layers over the edge list — each a dense layer without bias, the aggregation
  over the edges, and the combination with the node's own features over its degree and the layer's bias —, the first
  followed by the rectifier.
-/
import proofs.«134892_j82660940579213_1_alg».proof.Proof.Spec
import proofs.«134892_j82660940579213_1_alg».proof.Proof.HostChain

noncomputable section

namespace Cert.KernelIdeal.Hand

open Cert.KernelIdeal Idealize.ShloMosaic Cert.Gcn

variable [Facts]

/-- The degree vector of an edge list. -/
abbrev degE (ei : (⟨S2x1600000, .i32⟩ : BufTy).Contents (Elt Ideal)) : (⟨S100000, .f32⟩ : BufTy).Contents (Elt Ideal) :=
  degOf (dstOf ei)

/-- The aggregation of a feature matrix over an edge list. -/
abbrev aggE (ei : (⟨S2x1600000, .i32⟩ : BufTy).Contents (Elt Ideal)) (z : (⟨S100000x128, .f32⟩ : BufTy).Contents (Elt Ideal)) :
    (⟨S100000x128, .f32⟩ : BufTy).Contents (Elt Ideal) :=
  aggOf (srcOf ei) (dstOf ei) (normOf (degE ei)) z

/-- The first graph-convolution layer, with the rectifier. -/
def layerRelu (ei : (⟨S2x1600000, .i32⟩ : BufTy).Contents (Elt Ideal)) (h : (⟨S100000x128, .f32⟩ : BufTy).Contents (Elt Ideal))
    (W : (⟨S128x128, .f32⟩ : BufTy).Contents (Elt Ideal)) (β : (⟨S128, .f32⟩ : BufTy).Contents (Elt Ideal)) :
    (⟨S100000x128, .f32⟩ : BufTy).Contents (Elt Ideal) :=
  combineRelu (aggE ei (affineRow h W (zeroRow (F := Ideal)))) (affineRow h W (zeroRow (F := Ideal))) (colOf (dinvOf (degE ei))) (rowOf β)

/-- The second graph-convolution layer, without it. -/
def layerLin (ei : (⟨S2x1600000, .i32⟩ : BufTy).Contents (Elt Ideal)) (h : (⟨S100000x128, .f32⟩ : BufTy).Contents (Elt Ideal))
    (W : (⟨S128x128, .f32⟩ : BufTy).Contents (Elt Ideal)) (β : (⟨S128, .f32⟩ : BufTy).Contents (Elt Ideal)) :
    (⟨S100000x128, .f32⟩ : BufTy).Contents (Elt Ideal) :=
  combine (aggE ei (affineRow h W (zeroRow (F := Ideal)))) (affineRow h W (zeroRow (F := Ideal))) (colOf (dinvOf (degE ei))) (rowOf β)

/-- The network. -/
def outK (x : (⟨S100000x256, .f32⟩ : BufTy).Contents (Elt Ideal)) (ei : (⟨S2x1600000, .i32⟩ : BufTy).Contents (Elt Ideal))
    (Wp : (⟨S256x128, .f32⟩ : BufTy).Contents (Elt Ideal)) (bp : (⟨S128, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal)) :
    (⟨S100000x128, .f32⟩ : BufTy).Contents (Elt Ideal) :=
  layerLin ei (layerRelu ei (affineRow x Wp (rowOf bp)) W1 b1) W2 b2

end Cert.KernelIdeal.Hand

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Region0.lean ====
/-
  The first dense layer, block of rows by block of rows: what the array of hidden features holds once every
  block has been written back.
-/
import proofs.«134892_j82660940579213_1_alg».proof.Proof.Gen.KernelIdeal.Frame
import proofs.«134892_j82660940579213_1_alg».proof.Proof.Spec
import proofs.«134892_j82660940579213_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The block product contracts axis 1 of the rows' block with axis 0 of the weights: a plain matrix product. -/
theorem plain0 : Cert.PlainDot.Plain dot_S2000x256_S256x128_S2000x128_1_0_0_1_n_n := ⟨rfl, rfl, rfl, rfl, rfl, rfl⟩

/-- What the body stores at entry (p, q) of its block: row p of the rows' block against column q of the weights, the
    change of float format being the identity and the accumulator starting from zero, plus entry q of the bias row. -/
theorem pay0_apply (x0 : Vec Ideal S2000x256 .f32) (x1 : Vec Ideal S256x128 .f32) (x2 : Vec Ideal S1x128 .f32)
    (p : Fin 2000) (q : Fin 128) :
    k0_pay1 (F := Ideal) x0 x1 x2 (ix2 p q) = (∑ κ : Fin 256, x0 (ix2 p κ) * x1 (ix2 κ q)) + x2 (ix2 (0 : Fin 1) q) := by
  unfold k0_pay1
  show matmul (F := Ideal) dot_S2000x256_S256x128_S2000x128_1_0_0_1_n_n none (truncf .bf16 x0 bitsLt_bf16_f32) (truncf .bf16 x1 bitsLt_bf16_f32)
        (constant S2000x128 .f32 0x00000000#32) (ix2 p q)
      + broadcastTo S2000x128 (shapeCast S1x128 x2 shapeCasts_S1x128_S1x128) broadcasts_S1x128_S2000x128 (ix2 p q) = _
  refine congrArg₂ (· + ·) ?_ ?_
  · exact Cert.PlainDot.matmul_zero_apply plain0 rfl rfl none _ _ p q
  · rw [broadcastTo_1b_ab_apply, shapeCast_self]

/-- The index maps over the grid: the rows' window and the output window are at block t of the rows, every other
    window at its one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer of the arrays the call found: rows 2000 t … 2000 t + 1999
    of the layer read rows 2000 t … of x, all of W and the bias row. -/
theorem flushed0 (c : Dev nD) (t : Fin cfg0.N) :
    (dat0 (F := Ideal) V c).flushed 3 t
      = ((cfg0.win 3).blk t).view.read (Elt Ideal) (affineRow (V c main_arg0) (V c main_arg2) (V c main_v13)) := by
  show (cfg0.win 3).cut (grid0.coords t) ((dat0 V c).after 3 t) = _
  rw [after0_3]
  unfold out0_3
  rw [View.canon_unit_zero hz0]
  simp only [View.ld_unit_zero (S := S2000x256) hz0, View.ld_unit_zero (S := S256x128) hz0, View.ld_unit_zero (S := S1x128) hz0]
  obtain ⟨e00, e01, e10, e11, e20, e21, e30, e31⟩ := idx_facts0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
      = affineRow (V c main_arg0) (V c main_arg2) (V c main_v13) (((cfg0.win 3).blk t).view.emb (ix2 p q))
  refine (pay0_apply (iblk0 V c 0 t) (iblk0 V c 1 t) (iblk0 V c 2 t) p q).trans ?_
  unfold affineRow
  refine congrArg₂ (· + ·) (Finset.sum_congr rfl fun κ _ => congrArg₂ (· * ·) ?_ ?_) ?_
  · show V c main_arg0 (((cfg0.win 0).blk t).view.emb (ix2 p κ)) = V c main_arg0 _
    refine congrArg _ (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 256 + 1 * κ.val = κ.val; omega
  · show V c main_arg2 (((cfg0.win 1).blk t).view.emb (ix2 κ q)) = V c main_arg2 _
    refine congrArg _ (funext fun a => Fin.ext ?_)
    match a with
    | ⟨0, _⟩ => show win0_1.index t (0 : Fin 2) * 256 + 1 * κ.val = κ.val; omega
    | ⟨1, _⟩ => show win0_1.index t (1 : Fin 2) * 128 + 1 * q.val = win0_3.index t (1 : Fin 2) * 128 + 1 * q.val; omega
  · show V c main_v13 (((cfg0.win 2).blk t).view.emb (ix2 (0 : Fin 1) q)) = V c main_v13 _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v14).slice (win0_3.rect t)).set ↔ _
  rw [View.set_slice_whole, Rect.mem_set_unit]
  exact Iff.rfl

/-- The fifty blocks tile the output array: row r is in block r / 2000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨-, -, -, -, -, -, e30, e31⟩ := idx_facts0 ⟨(i 0).val / 2000, ht⟩
  refine ⟨⟨(i 0).val / 2000, ht⟩, flush0_3 _, ?_⟩
  rw [mem_blk0]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val
      ∧ (i 1).val < win0_3.index ⟨(i 0).val / 2000, ht⟩ (1 : Fin 2) * 128 + 128
    rw [e31]; omega

/-- After its fifty blocks of 2000 rows are written back, the output array of the first call is the dense layer of the
    arrays the call found. -/
theorem final0 (c : Dev nD) :
    (dat0 (F := Ideal) V c).arrAt 3 cfg0.N = affineRow (V c main_arg0) (V c main_arg2) (V c main_v13) :=
  (dat0 (F := Ideal) V c).arrAt_eq_of_cover 3 _ (fun t _ => flushed0 V c t) cover0

end Cert.KernelIdeal.Hand

end
-- ==== Proof.Region1.lean ====
/-
  A graph convolution's dense layer, block of rows by block of rows: what the array z holds once every block has been
  written back.
-/
import proofs.«134892_j82660940579213_1_alg».proof.Proof.Gen.KernelIdeal.Frame
import proofs.«134892_j82660940579213_1_alg».proof.Proof.Spec
import proofs.«134892_j82660940579213_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The block product contracts axis 1 of the rows' block with axis 0 of the weights: a plain matrix product. -/
theorem plain1 : Cert.PlainDot.Plain dot_S2000x128_S128x128_S2000x128_1_0_0_1_n_n := ⟨rfl, rfl, rfl, rfl, rfl, rfl⟩

/-- What the body stores at entry (p, q) of its block: row p of the rows' block against column q of the weights (the
    cast to the same shape and the change of float format are the identity, the accumulator starts from zero), plus
    entry q of the bias row. -/
theorem pay1_apply (x0 : Vec Ideal S2000x128 .f32) (x1 : Vec Ideal S128x128 .f32) (x2 : Vec Ideal S1x128 .f32)
    (p : Fin 2000) (q : Fin 128) :
    k1_pay1 (F := Ideal) x0 x1 x2 (ix2 p q) = (∑ κ : Fin 128, x0 (ix2 p κ) * x1 (ix2 κ q)) + x2 (ix2 (0 : Fin 1) q) := by
  unfold k1_pay1
  show matmul (F := Ideal) dot_S2000x128_S128x128_S2000x128_1_0_0_1_n_n none
        (truncf .bf16 (shapeCast S2000x128 x0 shapeCasts_S2000x128_S2000x128) bitsLt_bf16_f32) (truncf .bf16 x1 bitsLt_bf16_f32)
        (constant S2000x128 .f32 0x00000000#32) (ix2 p q)
      + broadcastTo S2000x128 (shapeCast S1x128 x2 shapeCasts_S1x128_S1x128) broadcasts_S1x128_S2000x128 (ix2 p q) = _
  refine congrArg₂ (· + ·) ?_ ?_
  · rw [shapeCast_self]
    exact Cert.PlainDot.matmul_zero_apply plain1 rfl rfl none _ _ p q
  · rw [broadcastTo_1b_ab_apply, shapeCast_self]

/-- The index maps over the grid: the rows' window and the output window are at block t of the rows, every other
    window at its one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the dense layer of the arrays the call found. -/
theorem flushed1 (c : Dev nD) (t : Fin cfg1.N) :
    (dat1 (F := Ideal) V c).flushed 3 t
      = ((cfg1.win 3).blk t).view.read (Elt Ideal) (affineRow (V c main_v14) (V c main_arg4) (V c main_v16)) := by
  show (cfg1.win 3).cut (grid1.coords t) ((dat1 V c).after 3 t) = _
  rw [after1_3]
  unfold out1_3
  rw [View.canon_unit_zero hz1]
  simp only [View.ld_unit_zero (S := S2000x128) hz1, View.ld_unit_zero (S := S128x128) hz1, View.ld_unit_zero (S := S1x128) hz1]
  obtain ⟨e00, e01, e10, e11, e20, e21, e30, e31⟩ := idx_facts1 t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (ix2 p q)
      = affineRow (V c main_v14) (V c main_arg4) (V c main_v16) (((cfg1.win 3).blk t).view.emb (ix2 p q))
  refine (pay1_apply (iblk1 V c 0 t) (iblk1 V c 1 t) (iblk1 V c 2 t) p q).trans ?_
  unfold affineRow
  refine congrArg₂ (· + ·) (Finset.sum_congr rfl fun κ _ => congrArg₂ (· * ·) ?_ ?_) ?_
  · show V c main_v14 (((cfg1.win 0).blk t).view.emb (ix2 p κ)) = V c main_v14 _
    refine congrArg _ (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * κ.val = κ.val; omega
  · show V c main_arg4 (((cfg1.win 1).blk t).view.emb (ix2 κ q)) = V c main_arg4 _
    refine congrArg _ (funext fun a => Fin.ext ?_)
    match a with
    | ⟨0, _⟩ => show win1_1.index t (0 : Fin 2) * 128 + 1 * κ.val = κ.val; omega
    | ⟨1, _⟩ => show win1_1.index t (1 : Fin 2) * 128 + 1 * q.val = win1_3.index t (1 : Fin 2) * 128 + 1 * q.val; omega
  · show V c main_v16 (((cfg1.win 2).blk t).view.emb (ix2 (0 : Fin 1) q)) = V c main_v16 _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the output array is in point t's block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v17).slice (win1_3.rect t)).set ↔ _
  rw [View.set_slice_whole, Rect.mem_set_unit]
  exact Iff.rfl

/-- The fifty blocks tile the output array: row r is in block r / 2000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, e30, e31⟩ := idx_facts1 ⟨(i 0).val / 2000, ht⟩
  refine ⟨⟨(i 0).val / 2000, ht⟩, flush1_3 _, ?_⟩
  rw [mem_blk1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e31]; omega

/-- After its fifty blocks of 2000 rows are written back, the call's output array is the dense layer of the arrays
    the call found. -/
theorem final1 (c : Dev nD) :
    (dat1 (F := Ideal) V c).arrAt 3 cfg1.N = affineRow (V c main_v14) (V c main_arg4) (V c main_v16) :=
  (dat1 (F := Ideal) V c).arrAt_eq_of_cover 3 _ (fun t _ => flushed1 V c t) cover1

end Cert.KernelIdeal.Hand

end
-- ==== Proof.LibColumn.lean ====
/-
  A vector laid out as a column, and a column spread over the columns of a matrix.

  A vector of a entries reshaped to a rows and one column keeps entry p at (p, 0): both orders of the entries are
  the row-major one.  A matrix of a rows and one column broadcast to a rows and b columns reads, at (p, c), the
  column's entry (p, 0): the unit axis is read at 0, the other at the same coordinate.
-/
import Idealize.ShloMosaic.Lib.ValueIdx
import Idealize.ShloMosaic.Lib.Pipeline.Value

namespace Cert.Column

open Idealize.ShloMosaic Idealize.ShloMosaic.ValueIdx

variable {α : Type}

/-- An `[a]` array cast to `[a, 1]` reads, at `(p, 0)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.Region2.lean ====
/-
  The end of the first graph-convolution layer, block of rows by block of rows: what the array of rectified features
  holds once every block has been written back.
-/
import proofs.«134892_j82660940579213_1_alg».proof.Proof.Gen.KernelIdeal.Frame
import proofs.«134892_j82660940579213_1_alg».proof.Proof.Spec
import proofs.«134892_j82660940579213_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- What the body stores at entry (p, q) of its block: the aggregated message, plus the node's own feature times its
    column entry, plus entry q of the bias row (the casts to the same shape are the identity), and of that and the value
    of the zero word the larger. -/
theorem pay2_apply (x0 x1 : Vec Ideal S2000x128 .f32) (x2 : Vec Ideal S2000x1 .f32) (x3 : Vec Ideal S1x128 .f32)
    (p : Fin 2000) (q : Fin 128) :
    k2_pay1 (F := Ideal) x0 x1 x2 x3 (ix2 p q)
      = max ((x0 (ix2 p q) + x1 (ix2 p q) * x2 (ix2 p (0 : Fin 1))) + x3 (ix2 (0 : Fin 1) q)) (Ideal.ofBits .f32 0x00000000#32) := by
  unfold k2_pay1
  show max ((shapeCast S2000x128 x0 shapeCasts_S2000x128_S2000x128 (ix2 p q)
        + shapeCast S2000x128 x1 shapeCasts_S2000x128_S2000x128 (ix2 p q)
          * broadcastTo S2000x128 (shapeCast S2000x1 x2 shapeCasts_S2000x1_S2000x1) broadcasts_S2000x1_S2000x128 (ix2 p q))
        + broadcastTo S2000x128 (shapeCast S1x128 x3 shapeCasts_S1x128_S1x128) broadcasts_S1x128_S2000x128 (ix2 p q))
      (Ideal.ofBits .f32 0x00000000#32) = _
  rw [Cert.Column.broadcastTo_a1_ab_apply, broadcastTo_1b_ab_apply]
  simp only [shapeCast_self]

/-- The index maps over the grid: every window with a block of 2000 rows is at block t, the bias row at its one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the combination of the arrays the call found. -/
theorem flushed2 (c : Dev nD) (t : Fin cfg2.N) :
    (dat2 (F := Ideal) V c).flushed 4 t
      = ((cfg2.win 4).blk t).view.read (Elt Ideal) (combineRelu (V c main_v45) (V c main_v17) (V c main_v46) (V c main_v47)) := by
  show (cfg2.win 4).cut (grid2.coords t) ((dat2 V c).after 4 t) = _
  rw [after2_4]
  unfold out2_4
  rw [View.canon_unit_zero hz2]
  simp only [View.ld_unit_zero (S := S2000x128) hz2, View.ld_unit_zero (S := S2000x1) hz2, View.ld_unit_zero (S := S1x128) hz2]
  obtain ⟨e00, e01, e10, e11, e20, e21, e30, e31, e40, e41⟩ := idx_facts2 t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (iblk2 V c 3 t) (ix2 p q)
      = combineRelu (V c main_v45) (V c main_v17) (V c main_v46) (V c main_v47) (((cfg2.win 4).blk t).view.emb (ix2 p q))
  refine (pay2_apply (iblk2 V c 0 t) (iblk2 V c 1 t) (iblk2 V c 2 t) (iblk2 V c 3 t) p q).trans ?_
  unfold combineRelu combine
  refine congrArg₂ max (congrArg₂ (· + ·) (congrArg₂ (· + ·) ?_ (congrArg₂ (· * ·) ?_ ?_)) ?_) rfl
  · show V c main_v45 (((cfg2.win 0).blk t).view.emb (ix2 p q)) = V c main_v45 _
    refine congrArg _ (funext fun a => Fin.ext ?_)
    match a with
    | ⟨0, _⟩ => show win2_0.index t (0 : Fin 2) * 2000 + 1 * p.val = win2_4.index t (0 : Fin 2) * 2000 + 1 * p.val; omega
    | ⟨1, _⟩ => show win2_0.index t (1 : Fin 2) * 128 + 1 * q.val = win2_4.index t (1 : Fin 2) * 128 + 1 * q.val; omega
  · show V c main_v17 (((cfg2.win 1).blk t).view.emb (ix2 p q)) = V c main_v17 _
    refine congrArg _ (funext fun a => Fin.ext ?_)
    match a with
    | ⟨0, _⟩ => show win2_1.index t (0 : Fin 2) * 2000 + 1 * p.val = win2_4.index t (0 : Fin 2) * 2000 + 1 * p.val; omega
    | ⟨1, _⟩ => show win2_1.index t (1 : Fin 2) * 128 + 1 * q.val = win2_4.index t (1 : Fin 2) * 128 + 1 * q.val; omega
  · show V c main_v46 (((cfg2.win 2).blk t).view.emb (ix2 p (0 : Fin 1))) = V c main_v46 _
    refine congrArg _ (funext fun a => Fin.ext ?_)
    match a with
    | ⟨0, _⟩ => show win2_2.index t (0 : Fin 2) * 2000 + 1 * p.val = win2_4.index t (0 : Fin 2) * 2000 + 1 * p.val; omega
    | ⟨1, _⟩ => show win2_2.index t (1 : Fin 2) * 1 + 1 * 0 = 0; omega
  · show V c main_v47 (((cfg2.win 3).blk t).view.emb (ix2 (0 : Fin 1) q)) = V c main_v47 _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega

/-- An index of the output array is in point t's block iff each coordinate is in the block's range on its axis. -/
theorem mem_blk2 (t : Fin cfg2.N) (i : S100000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v48).slice (win2_4.rect t)).set ↔ _
  rw [View.set_slice_whole, Rect.mem_set_unit]
  exact Iff.rfl

/-- The fifty blocks tile the output array: row r is in block r / 2000. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 50 := N_2
  have ht : (i 0).val / 2000 < cfg2.N := by rw [hN]; omega
  obtain ⟨-, -, -, -, -, -, -, -, e40, e41⟩ := idx_facts2 ⟨(i 0).val / 2000, ht⟩
  refine ⟨⟨(i 0).val / 2000, ht⟩, flush2_4 _, ?_⟩
  rw [mem_blk2]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win2_4.index ⟨(i 0).val / 2000, ht⟩ (1 : Fin 2) * 128 ≤ (i 1).val
      ∧ (i 1).val < win2_4.index ⟨(i 0).val / 2000, ht⟩ (1 : Fin 2) * 128 + 128
    rw [e41]; omega

/-- After its fifty blocks of 2000 rows are written back, the output array of the third call is the rectified
    combination of the arrays the call found. -/
theorem final2 (c : Dev nD) :
    (dat2 (F := Ideal) V c).arrAt 4 cfg2.N = combineRelu (V c main_v45) (V c main_v17) (V c main_v46) (V c main_v47) :=
  (dat2 (F := Ideal) V c).arrAt_eq_of_cover 4 _ (fun t _ => flushed2 V c t) cover2

end Cert.KernelIdeal.Hand

end
-- ==== Proof.Region3.lean ====
/-
  A graph convolution's dense layer, block of rows by block of rows: what the array z holds once every block has been
  written back.
-/
import proofs.«134892_j82660940579213_1_alg».proof.Proof.Gen.KernelIdeal.Frame
import proofs.«134892_j82660940579213_1_alg».proof.Proof.Spec
import proofs.«134892_j82660940579213_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The block product contracts axis 1 of the rows' block with axis 0 of the weights: a plain matrix product. -/
theorem plain3 : Cert.PlainDot.Plain dot_S2000x128_S128x128_S2000x128_1_0_0_1_n_n := ⟨rfl, rfl, rfl, rfl, rfl, rfl⟩

/-- What the body stores at entry (p, q) of its block: row p of the rows' block against column q of the weights (the
    cast to the same shape and the change of float format are the identity, the accumulator starts from zero), plus
    entry q of the bias row. -/
theorem pay3_apply (x0 : Vec Ideal S2000x128 .f32) (x1 : Vec Ideal S128x128 .f32) (x2 : Vec Ideal S1x128 .f32)
    (p : Fin 2000) (q : Fin 128) :
    k3_pay1 (F := Ideal) x0 x1 x2 (ix2 p q) = (∑ κ : Fin 128, x0 (ix2 p κ) * x1 (ix2 κ q)) + x2 (ix2 (0 : Fin 1) q) := by
  unfold k3_pay1
  show matmul (F := Ideal) dot_S2000x128_S128x128_S2000x128_1_0_0_1_n_n none
        (truncf .bf16 (shapeCast S2000x128 x0 shapeCasts_S2000x128_S2000x128) bitsLt_bf16_f32) (truncf .bf16 x1 bitsLt_bf16_f32)
        (constant S2000x128 .f32 0x00000000#32) (ix2 p q)
      + broadcastTo S2000x128 (shapeCast S1x128 x2 shapeCasts_S1x128_S1x128) broadcasts_S1x128_S2000x128 (ix2 p q) = _
  refine congrArg₂ (· + ·) ?_ ?_
  · rw [shapeCast_self]
    exact Cert.PlainDot.matmul_zero_apply plain3 rfl rfl none _ _ p q
  · rw [broadcastTo_1b_ab_apply, shapeCast_self]

/-- The index maps over the grid: the rows' window and the output window are at block t of the rows, every other
    window at its one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the dense layer of the arrays the call found. -/
theorem flushed3 (c : Dev nD) (t : Fin cfg3.N) :
    (dat3 (F := Ideal) V c).flushed 3 t
      = ((cfg3.win 3).blk t).view.read (Elt Ideal) (affineRow (V c main_v48) (V c main_arg6) (V c main_v50)) := by
  show (cfg3.win 3).cut (grid3.coords t) ((dat3 V c).after 3 t) = _
  rw [after3_3]
  unfold out3_3
  rw [View.canon_unit_zero hz3]
  simp only [View.ld_unit_zero (S := S2000x128) hz3, View.ld_unit_zero (S := S128x128) hz3, View.ld_unit_zero (S := S1x128) hz3]
  obtain ⟨e00, e01, e10, e11, e20, e21, e30, e31⟩ := idx_facts3 t
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (ix2 p q)
      = affineRow (V c main_v48) (V c main_arg6) (V c main_v50) (((cfg3.win 3).blk t).view.emb (ix2 p q))
  refine (pay3_apply (iblk3 V c 0 t) (iblk3 V c 1 t) (iblk3 V c 2 t) p q).trans ?_
  unfold affineRow
  refine congrArg₂ (· + ·) (Finset.sum_congr rfl fun κ _ => congrArg₂ (· * ·) ?_ ?_) ?_
  · show V c main_v48 (((cfg3.win 0).blk t).view.emb (ix2 p κ)) = V c main_v48 _
    refine congrArg _ (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * κ.val = κ.val; omega
  · show V c main_arg6 (((cfg3.win 1).blk t).view.emb (ix2 κ q)) = V c main_arg6 _
    refine congrArg _ (funext fun a => Fin.ext ?_)
    match a with
    | ⟨0, _⟩ => show win3_1.index t (0 : Fin 2) * 128 + 1 * κ.val = κ.val; omega
    | ⟨1, _⟩ => show win3_1.index t (1 : Fin 2) * 128 + 1 * q.val = win3_3.index t (1 : Fin 2) * 128 + 1 * q.val; omega
  · show V c main_v50 (((cfg3.win 2).blk t).view.emb (ix2 (0 : Fin 1) q)) = V c main_v50 _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- An index of the output array is in point t's block iff each coordinate is in the block's range on its axis. -/
theorem mem_blk3 (t : Fin cfg3.N) (i : S100000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v51).slice (win3_3.rect t)).set ↔ _
  rw [View.set_slice_whole, Rect.mem_set_unit]
  exact Iff.rfl

/-- The fifty blocks tile the output array: row r is in block r / 2000. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 50 := N_3
  have ht : (i 0).val / 2000 < cfg3.N := by rw [hN]; omega
  obtain ⟨-, -, -, -, -, -, e30, e31⟩ := idx_facts3 ⟨(i 0).val / 2000, ht⟩
  refine ⟨⟨(i 0).val / 2000, ht⟩, flush3_3 _, ?_⟩
  rw [mem_blk3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [e31]; omega

/-- After its fifty blocks of 2000 rows are written back, the call's output array is the dense layer of the arrays
    the call found. -/
theorem final3 (c : Dev nD) :
    (dat3 (F := Ideal) V c).arrAt 3 cfg3.N = affineRow (V c main_v48) (V c main_arg6) (V c main_v50) :=
  (dat3 (F := Ideal) V c).arrAt_eq_of_cover 3 _ (fun t _ => flushed3 V c t) cover3

end Cert.KernelIdeal.Hand

end
-- ==== Proof.Region4.lean ====
/-
  The end of the second graph-convolution layer, block of rows by block of rows: what the result array holds once
  every block has been written back.
-/
import proofs.«134892_j82660940579213_1_alg».proof.Proof.Gen.KernelIdeal.Frame
import proofs.«134892_j82660940579213_1_alg».proof.Proof.Spec
import proofs.«134892_j82660940579213_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- What the body stores at entry (p, q) of its block: the aggregated message, plus the node's own feature times its
    column entry, plus entry q of the bias row (the casts to the same shape are the identity). -/
theorem pay4_apply (x0 x1 : Vec Ideal S2000x128 .f32) (x2 : Vec Ideal S2000x1 .f32) (x3 : Vec Ideal S1x128 .f32)
    (p : Fin 2000) (q : Fin 128) :
    k4_pay1 (F := Ideal) x0 x1 x2 x3 (ix2 p q)
      = (x0 (ix2 p q) + x1 (ix2 p q) * x2 (ix2 p (0 : Fin 1))) + x3 (ix2 (0 : Fin 1) q) := by
  unfold k4_pay1
  show (shapeCast S2000x128 x0 shapeCasts_S2000x128_S2000x128 (ix2 p q)
        + shapeCast S2000x128 x1 shapeCasts_S2000x128_S2000x128 (ix2 p q)
          * broadcastTo S2000x128 (shapeCast S2000x1 x2 shapeCasts_S2000x1_S2000x1) broadcasts_S2000x1_S2000x128 (ix2 p q))
        + broadcastTo S2000x128 (shapeCast S1x128 x3 shapeCasts_S1x128_S1x128) broadcasts_S1x128_S2000x128 (ix2 p q) = _
  rw [Cert.Column.broadcastTo_a1_ab_apply, broadcastTo_1b_ab_apply]
  simp only [shapeCast_self]

/-- The index maps over the grid: every window with a block of 2000 rows is at block t, the bias row at its one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point t writes back is block t of the combination of the arrays the call found. -/
theorem flushed4 (c : Dev nD) (t : Fin cfg4.N) :
    (dat4 (F := Ideal) V c).flushed 4 t
      = ((cfg4.win 4).blk t).view.read (Elt Ideal) (combine (V c main_v79) (V c main_v51) (V c main_v80) (V c main_v81)) := by
  show (cfg4.win 4).cut (grid4.coords t) ((dat4 V c).after 4 t) = _
  rw [after4_4]
  unfold out4_4
  rw [View.canon_unit_zero hz4]
  simp only [View.ld_unit_zero (S := S2000x128) hz4, View.ld_unit_zero (S := S2000x1) hz4, View.ld_unit_zero (S := S1x128) hz4]
  obtain ⟨e00, e01, e10, e11, e20, e21, e30, e31, e40, e41⟩ := idx_facts4 t
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (iblk4 V c 2 t) (iblk4 V c 3 t) (ix2 p q)
      = combine (V c main_v79) (V c main_v51) (V c main_v80) (V c main_v81) (((cfg4.win 4).blk t).view.emb (ix2 p q))
  refine (pay4_apply (iblk4 V c 0 t) (iblk4 V c 1 t) (iblk4 V c 2 t) (iblk4 V c 3 t) p q).trans ?_
  unfold combine
  refine congrArg₂ (· + ·) (congrArg₂ (· + ·) ?_ (congrArg₂ (· * ·) ?_ ?_)) ?_
  · show V c main_v79 (((cfg4.win 0).blk t).view.emb (ix2 p q)) = V c main_v79 _
    refine congrArg _ (funext fun a => Fin.ext ?_)
    match a with
    | ⟨0, _⟩ => show win4_0.index t (0 : Fin 2) * 2000 + 1 * p.val = win4_4.index t (0 : Fin 2) * 2000 + 1 * p.val; omega
    | ⟨1, _⟩ => show win4_0.index t (1 : Fin 2) * 128 + 1 * q.val = win4_4.index t (1 : Fin 2) * 128 + 1 * q.val; omega
  · show V c main_v51 (((cfg4.win 1).blk t).view.emb (ix2 p q)) = V c main_v51 _
    refine congrArg _ (funext fun a => Fin.ext ?_)
    match a with
    | ⟨0, _⟩ => show win4_1.index t (0 : Fin 2) * 2000 + 1 * p.val = win4_4.index t (0 : Fin 2) * 2000 + 1 * p.val; omega
    | ⟨1, _⟩ => show win4_1.index t (1 : Fin 2) * 128 + 1 * q.val = win4_4.index t (1 : Fin 2) * 128 + 1 * q.val; omega
  · show V c main_v80 (((cfg4.win 2).blk t).view.emb (ix2 p (0 : Fin 1))) = V c main_v80 _
    refine congrArg _ (funext fun a => Fin.ext ?_)
    match a with
    | ⟨0, _⟩ => show win4_2.index t (0 : Fin 2) * 2000 + 1 * p.val = win4_4.index t (0 : Fin 2) * 2000 + 1 * p.val; omega
    | ⟨1, _⟩ => show win4_2.index t (1 : Fin 2) * 1 + 1 * 0 = 0; omega
  · show V c main_v81 (((cfg4.win 3).blk t).view.emb (ix2 (0 : Fin 1) q)) = V c main_v81 _
    refine congrArg _ (funext fun a => Fin.ext ?_)
    match a with
    | ⟨0, _⟩ => show win4_3.index t (0 : Fin 2) * 1 + 1 * 0 = 0; omega
    | ⟨1, _⟩ => show win4_3.index t (1 : Fin 2) * 128 + 1 * q.val = win4_4.index t (1 : Fin 2) * 128 + 1 * q.val; omega

/-- An index of the result array is in point t's block iff each coordinate is in the block's range on its axis. -/
theorem mem_blk4 (t : Fin cfg4.N) (i : S100000x128.Idx) :
    i ∈ ((cfg4.win 4).blk t).view.set ↔ ∀ a : Fin 2, win4_4.index t a * S2000x128.size a ≤ (i a).val
      ∧ (i a).val < win4_4.index t a * S2000x128.size a + S2000x128.size a := by
  show i ∈ ((View.whole main_v82).slice (win4_4.rect t)).set ↔ _
  rw [View.set_slice_whole, Rect.mem_set_unit]
  exact Iff.rfl

/-- The fifty blocks tile the result array: row r is in block r / 2000. -/
theorem cover4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 50 := N_4
  have ht : (i 0).val / 2000 < cfg4.N := by rw [hN]; omega
  obtain ⟨-, -, -, -, -, -, -, -, e40, e41⟩ := idx_facts4 ⟨(i 0).val / 2000, ht⟩
  refine ⟨⟨(i 0).val / 2000, ht⟩, flush4_4 _, ?_⟩
  rw [mem_blk4]
  intro a
  match a with
  | ⟨0, _⟩ =>
    show win4_4.index ⟨(i 0).val / 2000, ht⟩ (0 : Fin 2) * 2000 ≤ (i 0).val
      ∧ (i 0).val < win4_4.index ⟨(i 0).val / 2000, ht⟩ (0 : Fin 2) * 2000 + 2000
    rw [e40]; show (i 0).val / 2000 * 2000 ≤ (i 0).val ∧ (i 0).val < (i 0).val / 2000 * 2000 + 2000; omega
  | ⟨1, _⟩ =>
    show win4_4.index ⟨(i 0).val / 2000, ht⟩ (1 : Fin 2) * 128 ≤ (i 1).val
      ∧ (i 1).val < win4_4.index ⟨(i 0).val / 2000, ht⟩ (1 : Fin 2) * 128 + 128
    rw [e41]; omega

/-- After its fifty blocks of 2000 rows are written back, the result array is the combination of the arrays the last
    call found. -/
theorem final4 (c : Dev nD) :
    (dat4 (F := Ideal) V c).arrAt 4 cfg4.N = combine (V c main_v79) (V c main_v51) (V c main_v80) (V c main_v81) :=
  (dat4 (F := Ideal) V c).arrAt_eq_of_cover 4 _ (fun t _ => flushed4 V c t) cover4

end Cert.KernelIdeal.Hand

end
-- ==== Proof.KValue.lean ====
/-
  The kernel program's result as the network of its arguments: the contents of the result array at the last boundary,
  read back region by region and host stretch by host stretch to the arguments at launch.
-/
import proofs.«134892_j82660940579213_1_alg».proof.Proof.Gen.KernelIdeal.Frame
import proofs.«134892_j82660940579213_1_alg».proof.Proof.Network
import proofs.«134892_j82660940579213_1_alg».proof.Proof.Region0
import proofs.«134892_j82660940579213_1_alg».proof.Proof.Region1
import proofs.«134892_j82660940579213_1_alg».proof.Proof.Region2
import proofs.«134892_j82660940579213_1_alg».proof.Proof.Region3
import proofs.«134892_j82660940579213_1_alg».proof.Proof.Region4
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a host stretch writes holds after the stretch what it held before it. -/
local macro "unwritten% " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The first host stretch: the edge list's two rows, the two vectors made of the degree, the first bias as a row -/

theorem v1_at1 (c : Dev nD) : W1 m ρ c (Proc.devRef .tc main_v1) = srcOf (m ((c.tc : Thread nD τ).loc main_arg1)) := by
  show StableHlo.after hostOps0 (W0 m ρ c) (Proc.devRef .tc main_v1) = _
  after_results; rfl

theorem v3_at1 (c : Dev nD) : W1 m ρ c (Proc.devRef .tc main_v3) = dstOf (m ((c.tc : Thread nD τ).loc main_arg1)) := by
  show StableHlo.after hostOps0 (W0 m ρ c) (Proc.devRef .tc main_v3) = _
  after_results; rfl

theorem v10_at1 (c : Dev nD) :
    W1 m ρ c (Proc.devRef .tc main_v10) = normOf (degOf (dstOf (m ((c.tc : Thread nD τ).loc main_arg1)))) := by
  show StableHlo.after hostOps0 (W0 m ρ c) (Proc.devRef .tc main_v10) = _
  after_results; rfl

theorem v12_at1 (c : Dev nD) :
    W1 m ρ c (Proc.devRef .tc main_v12) = dinvOf (degOf (dstOf (m ((c.tc : Thread nD τ).loc main_arg1)))) := by
  show StableHlo.after hostOps0 (W0 m ρ c) (Proc.devRef .tc main_v12) = _
  after_results; rfl

theorem v13_at1 (c : Dev nD) : V1 m ρ c main_v13 = rowOf (m ((c.tc : Thread nD τ).loc main_arg3)) := by
  show StableHlo.after hostOps0 (W0 m ρ c) (Proc.devRef .tc main_v13) = _
  after_results; rfl

theorem arg0_at1 (c : Dev nD) : V1 m ρ c main_arg0 = m ((c.tc : Thread nD τ).loc main_arg0) :=
  unwritten% hostOps0 main_arg0

theorem arg2_at1 (c : Dev nD) : V1 m ρ c main_arg2 = m ((c.tc : Thread nD τ).loc main_arg2) :=
  unwritten% hostOps0 main_arg2

/-! ## Region 0: the dense layer on the node features -/

/-- The node features after the first dense layer. -/
abbrev hid0 (c : Dev nD) : (⟨S100000x128, .f32⟩ : BufTy).Contents (Elt Ideal) :=
  affineRow (m ((c.tc : Thread nD τ).loc main_arg0)) (m ((c.tc : Thread nD τ).loc main_arg2))
    (rowOf (m ((c.tc : Thread nD τ).loc main_arg3)))

theorem v14_at2 (c : Dev nD) : W2 m ρ c (Proc.devRef .tc main_v14) = hid0 m c :=
  (W2_arr m ρ c 3).trans ((final0 (V1 m ρ) c).trans (by
    rw [arg0_at1 m ρ c, arg2_at1 m ρ c, v13_at1 m ρ c]))

/-! ## The second host stretch and region 1: the first convolution's dense layer, without bias -/

theorem v14_at3 (c : Dev nD) : V3 m ρ c main_v14 = hid0 m c :=
  Eq.trans (unwritten% hostOps1 main_v14) (v14_at2 m ρ c)

theorem arg4_at3 (c : Dev nD) : V3 m ρ c main_arg4 = m ((c.tc : Thread nD τ).loc main_arg4) :=
  calc W3 m ρ c (Proc.devRef .tc main_arg4)
    _ = W2 m ρ c (Proc.devRef .tc main_arg4) := unwritten% hostOps1 main_arg4
    _ = W1 m ρ c (Proc.devRef .tc main_arg4) := W2_of_ne m ρ c main_arg4 (by decide)
    _ = W0 m ρ c (Proc.devRef .tc main_arg4) := unwritten% hostOps0 main_arg4
    _ = m ((c.tc : Thread nD τ).loc main_arg4) := rfl

theorem v16_at3 (c : Dev nD) : V3 m ρ c main_v16 = zeroRow (F := Ideal) := by
  show StableHlo.after hostOps1 (W2 m ρ c) (Proc.devRef .tc main_v16) = _
  after_results; rfl

/-- The first convolution's dense layer applied to the node features. -/
abbrev lin1 (c : Dev nD) : (⟨S100000x128, .f32⟩ : BufTy).Contents (Elt Ideal) :=
  affineRow (hid0 m c) (m ((c.tc : Thread nD τ).loc main_arg4)) (zeroRow (F := Ideal))

theorem v17_at4 (c : Dev nD) : W4 m ρ c (Proc.devRef .tc main_v17) = lin1 m c :=
  (W4_arr m ρ c 3).trans ((final1 (V3 m ρ) c).trans (by
    rw [v14_at3 m ρ c, arg4_at3 m ρ c, v16_at3 m ρ c]))

/-! ## What the first host stretch made, still there when the third and the fifth read it -/

theorem v1_at4 (c : Dev nD) : W4 m ρ c (Proc.devRef .tc main_v1) = srcOf (m ((c.tc : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := unwritten% hostOps1 main_v1
    _ = W1 m ρ c (Proc.devRef .tc main_v1) := W2_of_ne m ρ c main_v1 (by decide)
    _ = _ := v1_at1 m ρ c

theorem v3_at4 (c : Dev nD) : W4 m ρ c (Proc.devRef .tc main_v3) = dstOf (m ((c.tc : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := unwritten% hostOps1 main_v3
    _ = W1 m ρ c (Proc.devRef .tc main_v3) := W2_of_ne m ρ c main_v3 (by decide)
    _ = _ := v3_at1 m ρ c

theorem v10_at4 (c : Dev nD) :
    W4 m ρ c (Proc.devRef .tc main_v10) = normOf (degOf (dstOf (m ((c.tc : Thread nD τ).loc main_arg1)))) :=
  calc W4 m ρ c (Proc.devRef .tc main_v10)
    _ = W3 m ρ c (Proc.devRef .tc main_v10) := W4_of_ne m ρ c main_v10 (by decide)
    _ = W2 m ρ c (Proc.devRef .tc main_v10) := unwritten% hostOps1 main_v10
    _ = W1 m ρ c (Proc.devRef .tc main_v10) := W2_of_ne m ρ c main_v10 (by decide)
    _ = _ := v10_at1 m ρ c

theorem v12_at4 (c : Dev nD) :
    W4 m ρ c (Proc.devRef .tc main_v12) = dinvOf (degOf (dstOf (m ((c.tc : Thread nD τ).loc main_arg1)))) :=
  calc W4 m ρ c (Proc.devRef .tc main_v12)
    _ = W3 m ρ c (Proc.devRef .tc main_v12) := W4_of_ne m ρ c main_v12 (by decide)
    _ = W2 m ρ c (Proc.devRef .tc main_v12) := unwritten% hostOps1 main_v12
    _ = W1 m ρ c (Proc.devRef .tc main_v12) := W2_of_ne m ρ c main_v12 (by decide)
    _ = _ := v12_at1 m ρ c

theorem v1_at8 (c : Dev nD) : W8 m ρ c (Proc.devRef .tc main_v1) = srcOf (m ((c.tc : Thread nD τ).loc main_arg1)) :=
  calc W8 m ρ c (Proc.devRef .tc main_v1)
    _ = W7 m ρ c (Proc.devRef .tc main_v1) := W8_of_ne m ρ c main_v1 (by decide)
    _ = W6 m ρ c (Proc.devRef .tc main_v1) := unwritten% hostOps3 main_v1
    _ = W5 m ρ c (Proc.devRef .tc main_v1) := W6_of_ne m ρ c main_v1 (by decide)
    _ = W4 m ρ c (Proc.devRef .tc main_v1) := unwritten% hostOps2 main_v1
    _ = _ := v1_at4 m ρ c

theorem v3_at8 (c : Dev nD) : W8 m ρ c (Proc.devRef .tc main_v3) = dstOf (m ((c.tc : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := unwritten% hostOps3 main_v3
    _ = W5 m ρ c (Proc.devRef .tc main_v3) := W6_of_ne m ρ c main_v3 (by decide)
    _ = W4 m ρ c (Proc.devRef .tc main_v3) := unwritten% hostOps2 main_v3
    _ = _ := v3_at4 m ρ c

theorem v10_at8 (c : Dev nD) :
    W8 m ρ c (Proc.devRef .tc main_v10) = normOf (degOf (dstOf (m ((c.tc : Thread nD τ).loc main_arg1)))) :=
  calc W8 m ρ c (Proc.devRef .tc main_v10)
    _ = W7 m ρ c (Proc.devRef .tc main_v10) := W8_of_ne m ρ c main_v10 (by decide)
    _ = W6 m ρ c (Proc.devRef .tc main_v10) := unwritten% hostOps3 main_v10
    _ = W5 m ρ c (Proc.devRef .tc main_v10) := W6_of_ne m ρ c main_v10 (by decide)
    _ = W4 m ρ c (Proc.devRef .tc main_v10) := unwritten% hostOps2 main_v10
    _ = _ := v10_at4 m ρ c

theorem v12_at8 (c : Dev nD) :
    W8 m ρ c (Proc.devRef .tc main_v12) = dinvOf (degOf (dstOf (m ((c.tc : Thread nD τ).loc main_arg1)))) :=
  calc W8 m ρ c (Proc.devRef .tc main_v12)
    _ = W7 m ρ c (Proc.devRef .tc main_v12) := W8_of_ne m ρ c main_v12 (by decide)
    _ = W6 m ρ c (Proc.devRef .tc main_v12) := unwritten% hostOps3 main_v12
    _ = W5 m ρ c (Proc.devRef .tc main_v12) := W6_of_ne m ρ c main_v12 (by decide)
    _ = W4 m ρ c (Proc.devRef .tc main_v12) := unwritten% hostOps2 main_v12
    _ = _ := v12_at4 m ρ c

/-! ## The third host stretch and region 2: the aggregation over the edges and the first combination, rectified -/

theorem arg5_at4 (c : Dev nD) : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := unwritten% hostOps1 main_arg5
    _ = W1 m ρ c (Proc.devRef .tc main_arg5) := W2_of_ne m ρ c main_arg5 (by decide)
    _ = W0 m ρ c (Proc.devRef .tc main_arg5) := unwritten% hostOps0 main_arg5
    _ = m ((c.tc : Thread nD τ).loc main_arg5) := rfl

theorem v45_at5 (c : Dev nD) :
    V5 m ρ c main_v45 = aggOf (W4 m ρ c (Proc.devRef .tc main_v1)) (W4 m ρ c (Proc.devRef .tc main_v3))
      (W4 m ρ c (Proc.devRef .tc main_v10)) (W4 m ρ c (Proc.devRef .tc main_v17)) := by
  show StableHlo.after hostOps2 (W4 m ρ c) (Proc.devRef .tc main_v45) = _
  after_results_simp
  generalize W4 m ρ c (Proc.devRef .tc main_v1) = s
  generalize W4 m ρ c (Proc.devRef .tc main_v3) = d
  generalize W4 m ρ c (Proc.devRef .tc main_v10) = n
  generalize W4 m ρ c (Proc.devRef .tc main_v17) = z
  rfl

theorem v46_at5 (c : Dev nD) : V5 m ρ c main_v46 = colOf (W4 m ρ c (Proc.devRef .tc main_v12)) := by
  show StableHlo.after hostOps2 (W4 m ρ c) (Proc.devRef .tc main_v46) = _
  after_results
  generalize W4 m ρ c (Proc.devRef .tc main_v12) = r
  rfl

theorem v47_at5 (c : Dev nD) : V5 m ρ c main_v47 = rowOf (W4 m ρ c (Proc.devRef .tc main_arg5)) := by
  show StableHlo.after hostOps2 (W4 m ρ c) (Proc.devRef .tc main_v47) = _
  after_results
  generalize W4 m ρ c (Proc.devRef .tc main_arg5) = b
  rfl

theorem v17_at5 (c : Dev nD) : V5 m ρ c main_v17 = lin1 m c :=
  Eq.trans (unwritten% hostOps2 main_v17) (v17_at4 m ρ c)

/-- The node features after the first convolution. -/
abbrev hid1 (c : Dev nD) : (⟨S100000x128, .f32⟩ : BufTy).Contents (Elt Ideal) :=
  layerRelu (m ((c.tc : Thread nD τ).loc main_arg1)) (hid0 m c) (m ((c.tc : Thread nD τ).loc main_arg4))
    (m ((c.tc : Thread nD τ).loc main_arg5))

theorem v48_at6 (c : Dev nD) : W6 m ρ c (Proc.devRef .tc main_v48) = hid1 m c :=
  (W6_arr m ρ c 4).trans ((final2 (V5 m ρ) c).trans (by
    rw [v45_at5 m ρ c, v17_at5 m ρ c, v46_at5 m ρ c, v47_at5 m ρ c,
      v1_at4 m ρ c, v3_at4 m ρ c, v10_at4 m ρ c, v17_at4 m ρ c, v12_at4 m ρ c, arg5_at4 m ρ c]
    rfl))

/-! ## The fourth host stretch and region 3: the second convolution's dense layer, without bias -/

theorem v48_at7 (c : Dev nD) : V7 m ρ c main_v48 = hid1 m c :=
  Eq.trans (unwritten% hostOps3 main_v48) (v48_at6 m ρ c)

theorem arg6_at7 (c : Dev nD) : V7 m ρ c main_arg6 = m ((c.tc : Thread nD τ).loc main_arg6) :=
  calc W7 m ρ c (Proc.devRef .tc main_arg6)
    _ = W8 m ρ c (Proc.devRef .tc main_arg6) :=
        ((W8_arr m ρ c 1).trans (((dat3 (V7 m ρ) c).arrAt_in 1 rfl _).trans (A_eq3 (V7 m ρ) c 1))).symm
    _ = W9 m ρ c (Proc.devRef .tc main_arg6) := (unwritten% hostOps4 main_arg6).symm
    _ = W10 m ρ c (Proc.devRef .tc main_arg6) := (W10_of_ne m ρ c main_arg6 (by decide)).symm
    _ = m ((c.tc : Thread nD τ).loc main_arg6) := W10_main_arg6 m ρ c

theorem v50_at7 (c : Dev nD) : V7 m ρ c main_v50 = zeroRow (F := Ideal) := by
  show StableHlo.after hostOps3 (W6 m ρ c) (Proc.devRef .tc main_v50) = _
  after_results; rfl

/-- The second convolution's dense layer applied to the node features. -/
abbrev lin2 (c : Dev nD) : (⟨S100000x128, .f32⟩ : BufTy).Contents (Elt Ideal) :=
  affineRow (hid1 m c) (m ((c.tc : Thread nD τ).loc main_arg6)) (zeroRow (F := Ideal))

theorem v51_at8 (c : Dev nD) : W8 m ρ c (Proc.devRef .tc main_v51) = lin2 m c :=
  (W8_arr m ρ c 3).trans ((final3 (V7 m ρ) c).trans (by
    rw [v48_at7 m ρ c, arg6_at7 m ρ c, v50_at7 m ρ c]))

/-! ## The fifth host stretch and region 4: the aggregation again and the second combination -/

theorem arg7_at8 (c : Dev nD) : W8 m ρ c (Proc.devRef .tc main_arg7) = m ((c.tc : Thread nD τ).loc main_arg7) :=
  calc W8 m ρ c (Proc.devRef .tc main_arg7)
    _ = W9 m ρ c (Proc.devRef .tc main_arg7) := (unwritten% hostOps4 main_arg7).symm
    _ = W10 m ρ c (Proc.devRef .tc main_arg7) := (W10_of_ne m ρ c main_arg7 (by decide)).symm
    _ = m ((c.tc : Thread nD τ).loc main_arg7) := W10_main_arg7 m ρ c

theorem v79_at9 (c : Dev nD) :
    V9 m ρ c main_v79 = aggOf (W8 m ρ c (Proc.devRef .tc main_v1)) (W8 m ρ c (Proc.devRef .tc main_v3))
      (W8 m ρ c (Proc.devRef .tc main_v10)) (W8 m ρ c (Proc.devRef .tc main_v51)) := by
  show StableHlo.after hostOps4 (W8 m ρ c) (Proc.devRef .tc main_v79) = _
  after_results_simp
  generalize W8 m ρ c (Proc.devRef .tc main_v1) = s
  generalize W8 m ρ c (Proc.devRef .tc main_v3) = d
  generalize W8 m ρ c (Proc.devRef .tc main_v10) = n
  generalize W8 m ρ c (Proc.devRef .tc main_v51) = z
  rfl

theorem v80_at9 (c : Dev nD) : V9 m ρ c main_v80 = colOf (W8 m ρ c (Proc.devRef .tc main_v12)) := by
  show StableHlo.after hostOps4 (W8 m ρ c) (Proc.devRef .tc main_v80) = _
  after_results
  generalize W8 m ρ c (Proc.devRef .tc main_v12) = r
  rfl

theorem v81_at9 (c : Dev nD) : V9 m ρ c main_v81 = rowOf (W8 m ρ c (Proc.devRef .tc main_arg7)) := by
  show StableHlo.after hostOps4 (W8 m ρ c) (Proc.devRef .tc main_v81) = _
  after_results
  generalize W8 m ρ c (Proc.devRef .tc main_arg7) = b
  rfl

theorem v51_at9 (c : Dev nD) : V9 m ρ c main_v51 = lin2 m c :=
  Eq.trans (unwritten% hostOps4 main_v51) (v51_at8 m ρ c)

/-- What the last boundary holds in the result array is the network of the arguments at launch. -/
theorem result_eq (c : Dev nD) :
    W10 m ρ c (Proc.devRef .tc main_v82)
      = outK (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (W10_arr m ρ c 4).trans ((final4 (V9 m ρ) c).trans (by
    rw [v79_at9 m ρ c, v51_at9 m ρ c, v80_at9 m ρ c, v81_at9 m ρ c,
      v1_at8 m ρ c, v3_at8 m ρ c, v10_at8 m ρ c, v51_at8 m ρ c, v12_at8 m ρ c, arg7_at8 m ρ c]
    rfl))

end Cert.KernelIdeal.Hand

end
-- ==== Proof.RefLayers.lean ====
/-
  The reference's two graph-convolution layers, read stage by stage at the ideal values: its last stage is the
  network of its arguments.

  The stages that only the host computes (the two rows of the edge list, the degrees, their inverse square roots and
  reciprocals, the wrapped node indices, the edges' coefficients and the two aggregations) are the same operations on
  the same dimension numbers as the network's, so each is the network's term by unfolding.  A dense stage is read at
  an entry (p, q) as the sum over the contraction index plus the bias entry q; a combination stage is read at (p, q)
  as the aggregated entry, plus the node's own entry times entry p of the reciprocal degrees, plus the bias entry q.
-/
import proofs.«134892_j82660940579213_1_alg».proof.Proof.Gen.ReferenceIdeal.Run
import proofs.«134892_j82660940579213_1_alg».proof.Proof.Gen.ReferenceIdeal.Read
import proofs.«134892_j82660940579213_1_alg».proof.Proof.Network
import proofs.«134892_j82660940579213_1_alg».proof.Proof.LibPlainDot
import proofs.«134892_j82660940579213_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Layers

open Cert.ReferenceIdeal Cert.ReferenceIdeal.Read Cert.Gcn
open Idealize.ShloMosaic Idealize.ShloMosaic.ValueIdx

variable [Cert.ReferenceIdeal.Facts] [Cert.KernelIdeal.Facts]

section Stages

open Cert.KernelIdeal.Hand

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))

/-! ## The stages only the host computes -/

/-- Row 0 of the edge list: the edges' source nodes. -/
theorem src_eq : val_main_v1 (F := Ideal) x1 = srcOf x1 := by
  unfold val_main_v1 val_main_v0 srcOf; rfl

/-- Row 1 of the edge list: the edges' destination nodes. -/
theorem dst_eq : val_main_v3 (F := Ideal) x1 = dstOf x1 := by
  unfold val_main_v3 val_main_v2 dstOf; rfl

/-- The degrees: ones scattered from zero to the destination nodes, plus one. -/
theorem deg_eq : val_main_v9 (F := Ideal) x1 = degOf (val_main_v3 (F := Ideal) x1) := by
  unfold val_main_v9 val_main_v8 val_main_cst_1 val_main_v7 val_main_v6 val_main_v5 val_main_cst_0 val_main_v4 val_main_cst degOf
  rfl

/-- The inverse square roots of the degrees. -/
theorem norm_eq : val_main_v10 (F := Ideal) x1 = normOf (val_main_v9 (F := Ideal) x1) := by
  unfold val_main_v10 normOf; rfl

/-- The reciprocals of the degrees. -/
theorem dinv_eq : val_main_v12 (F := Ideal) x1 = dinvOf (val_main_v9 (F := Ideal) x1) := by
  unfold val_main_v12 val_main_v11 val_main_cst_2 dinvOf; rfl

/-- A node index as the gather takes it, for the source row (first layer's coefficient). -/
theorem wrap23_eq : val_main_v23 (F := Ideal) x1 = wrapIx (val_main_v1 (F := Ideal) x1) := by
  unfold val_main_v23 val_main_v22 val_main_v19 val_main_v21 val_main_v18 val_main_v20 val_main_c val_main_c_3 wrapIx; rfl

/-- The same for the destination row (first layer's coefficient). -/
theorem wrap30_eq : val_main_v30 (F := Ideal) x1 = wrapIx (val_main_v3 (F := Ideal) x1) := by
  unfold val_main_v30 val_main_v29 val_main_v26 val_main_v28 val_main_v25 val_main_v27 val_main_c_4 val_main_c_5 wrapIx; rfl

/-- The same for the source row (first layer's gathered features). -/
theorem wrap39_eq : val_main_v39 (F := Ideal) x1 = wrapIx (val_main_v1 (F := Ideal) x1) := by
  unfold val_main_v39 val_main_v38 val_main_v35 val_main_v37 val_main_v34 val_main_v36 val_main_c_6 val_main_c_7 wrapIx; rfl

/-- The same for the source row (second layer's coefficient). -/
theorem wrap60_eq : val_main_v60 (F := Ideal) x1 = wrapIx (val_main_v1 (F := Ideal) x1) := by
  unfold val_main_v60 val_main_v59 val_main_v56 val_main_v58 val_main_v55 val_main_v57 val_main_c_9 val_main_c_10 wrapIx; rfl

/-- The same for the destination row (second layer's coefficient). -/
theorem wrap67_eq : val_main_v67 (F := Ideal) x1 = wrapIx (val_main_v3 (F := Ideal) x1) := by
  unfold val_main_v67 val_main_v66 val_main_v63 val_main_v65 val_main_v62 val_main_v64 val_main_c_11 val_main_c_12 wrapIx; rfl

/-- The same for the source row (second layer's gathered features). -/
theorem wrap76_eq : val_main_v76 (F := Ideal) x1 = wrapIx (val_main_v1 (F := Ideal) x1) := by
  unfold val_main_v76 val_main_v75 val_main_v72 val_main_v74 val_main_v71 val_main_v73 val_main_c_13 val_main_c_14 wrapIx; rfl

/-- The first layer's edge coefficients: the product of the endpoints' inverse square-root degrees. -/
theorem coef32_eq : val_main_v32 (F := Ideal) x1
    = coefOf (val_main_v1 (F := Ideal) x1) (val_main_v3 (F := Ideal) x1) (val_main_v10 (F := Ideal) x1) := by
  unfold val_main_v32 val_main_v24 val_main_v31 coefOf
  rw [wrap23_eq, wrap30_eq]; rfl

/-- The second layer's edge coefficients: the same product. -/
theorem coef69_eq : val_main_v69 (F := Ideal) x1
    = coefOf (val_main_v1 (F := Ideal) x1) (val_main_v3 (F := Ideal) x1) (val_main_v10 (F := Ideal) x1) := by
  unfold val_main_v69 val_main_v61 val_main_v68 coefOf
  rw [wrap60_eq, wrap67_eq]; rfl

/-- The first layer's aggregation: the scaled source features summed, from zero, at the destination nodes. -/
theorem agg45_eq : val_main_v45 (F := Ideal) x0 x1 x2 x3 x4
    = aggOf (val_main_v1 (F := Ideal) x1) (val_main_v3 (F := Ideal) x1) (val_main_v10 (F := Ideal) x1)
        (val_main_v17 (F := Ideal) x0 x2 x3 x4) := by
  unfold val_main_v45 val_main_v44 val_main_v43 val_main_cst_8 val_main_v42 val_main_v41 val_main_v40 val_main_v33 aggOf
  rw [wrap39_eq, coef32_eq]; rfl

/-- The second layer's aggregation: the same over the second layer's features. -/
theorem agg82_eq : val_main_v82 (F := Ideal) x0 x1 x2 x3 x4 x5 x6
    = aggOf (val_main_v1 (F := Ideal) x1) (val_main_v3 (F := Ideal) x1) (val_main_v10 (F := Ideal) x1)
        (val_main_v54 (F := Ideal) x0 x1 x2 x3 x4 x5 x6) := by
  unfold val_main_v82 val_main_v81 val_main_v80 val_main_cst_15 val_main_v79 val_main_v78 val_main_v77 val_main_v70 aggOf
  rw [wrap76_eq, coef69_eq]; rfl

/-! ## The layouts read at an entry -/

/-- A bias vector broadcast to a row and then to every row reads, at (p, q), entry q of the vector laid out as a row. -/
theorem biasRows_apply (b : (⟨S128, .f32⟩ : BufTy).Contents (Elt Ideal)) (p : Fin 100000) (q : Fin 128) :
    val_main_v15 (F := Ideal) b (ix2 p q) = rowOf b (ix2 (0 : Fin 1) q) := by
  rw [val_main_v15_apply, val_main_v14_apply]
  unfold rowOf
  refine Eq.trans ?_ (shapeCast_a_1a_apply b _ (0 : Fin 1) q).symm
  exact congrArg b (funext fun a => match a with | ⟨0, _⟩ => rfl)

/-- The reciprocal degrees broadcast to a column and then to every column read, at (p, q), entry p of the vector laid
out as a column. -/
theorem dinvCols_apply (p : Fin 100000) (q : Fin 128) :
    val_main_v47 (F := Ideal) x1 (ix2 p q) = colOf (val_main_v12 (F := Ideal) x1) (ix2 p (0 : Fin 1)) := by
  rw [val_main_v47_apply, val_main_v46_apply]
  unfold colOf
  refine Eq.trans ?_ (Cert.Column.shapeCast_a_a1_apply (val_main_v12 (F := Ideal) x1) _ p (0 : Fin 1)).symm
  exact congrArg (val_main_v12 (F := Ideal) x1) (funext fun a => match a with | ⟨0, _⟩ => rfl)

/-- Every entry of the zero row is the extended real zero. -/
theorem zeroRow_apply (q : Fin 128) : zeroRow (F := Ideal) (ix2 (0 : Fin 1) q) = 0 := by
  unfold zeroRow rowOf
  refine (shapeCast_a_1a_apply _ _ (0 : Fin 1) q).trans ?_
  refine (broadcastInDim_apply _ _ _ _ ix0 (fun a => a.elim0)).trans ?_
  exact Ideal.ofBits_zero_f32

/-! ## The dense stages -/

/-- The first dense stage: the node features against the projection weights, plus the projection bias. -/
theorem dense16_eq : val_main_v16 (F := Ideal) x0 x2 x3 = affineRow x0 x2 (rowOf x3) := by
  funext i
  obtain ⟨p, q, rfl⟩ : ∃ (p : Fin 100000) (q : Fin 128), i = ix2 p q := ⟨i 0, i 1, eq_ix2 i⟩
  rw [affineRow_apply, ← biasRows_apply x3 p q]
  show val_main_v13 (F := Ideal) x0 x2 (ix2 p q) + val_main_v15 (F := Ideal) x3 (ix2 p q) = _
  congr 1
  unfold val_main_v13
  exact Cert.PlainDot.dotGeneral_apply ⟨rfl, rfl, rfl, rfl, rfl, rfl⟩ rfl rfl none x0 x2 p q

/-- A product of a feature matrix with a square weight matrix is the dense layer with the zero row for its bias. -/
theorem dense128_eq (h : FVec Ideal S100000x128 .f32) (W : FVec Ideal S128x128 .f32) :
    Host.dotGeneral (F := Ideal) dot_S100000x128_S128x128_S100000x128_1_0_0_1_n_n none h W
      = affineRow h W (zeroRow (F := Ideal)) := by
  funext i
  obtain ⟨p, q, rfl⟩ : ∃ (p : Fin 100000) (q : Fin 128), i = ix2 p q := ⟨i 0, i 1, eq_ix2 i⟩
  rw [affineRow_zero h W (zeroRow (F := Ideal)) zeroRow_apply p q]
  exact Cert.PlainDot.dotGeneral_apply ⟨rfl, rfl, rfl, rfl, rfl, rfl⟩ rfl rfl none h W p q

/-- The first layer's dense stage. -/
theorem dense17_eq : val_main_v17 (F := Ideal) x0 x2 x3 x4
    = affineRow (val_main_v16 (F := Ideal) x0 x2 x3) x4 (zeroRow (F := Ideal)) := by
  unfold val_main_v17; exact dense128_eq _ _

/-- The second layer's dense stage. -/
theorem dense54_eq : val_main_v54 (F := Ideal) x0 x1 x2 x3 x4 x5 x6
    = affineRow (val_main_v53 (F := Ideal) x0 x1 x2 x3 x4 x5) x6 (zeroRow (F := Ideal)) := by
  unfold val_main_v54; exact dense128_eq _ _

/-! ## The combinations -/

/-- Messages, plus the node's own features times the reciprocal degrees broadcast along the rows, plus the bias
broadcast down the rows: the end of a graph-convolution layer. -/
theorem combine_stage (agg z : FVec Ideal S100000x128 .f32) (b : FVec Ideal S128 .f32) :
    addf (F := Ideal) (addf (F := Ideal) agg (mulf (F := Ideal) z (val_main_v47 (F := Ideal) x1))) (val_main_v15 (F := Ideal) b)
      = combine agg z (colOf (val_main_v12 (F := Ideal) x1)) (rowOf (F := Ideal) b) := by
  funext i
  obtain ⟨p, q, rfl⟩ : ∃ (p : Fin 100000) (q : Fin 128), i = ix2 p q := ⟨i 0, i 1, eq_ix2 i⟩
  rw [combine_apply, ← dinvCols_apply x1 p q, ← biasRows_apply b p q]
  rfl

/-- The first layer's combination, before the rectifier. -/
theorem comb52_eq : val_main_v52 (F := Ideal) x0 x1 x2 x3 x4 x5
    = combine (val_main_v45 (F := Ideal) x0 x1 x2 x3 x4) (val_main_v17 (F := Ideal) x0 x2 x3 x4)
        (colOf (val_main_v12 (F := Ideal) x1)) (rowOf x5) := by
  unfold val_main_v52 val_main_v49 val_main_v48
  exact combine_stage x1 _ _ x5

/-- The first layer's combination with the rectifier. -/
theorem relu53_eq : val_main_v53 (F := Ideal) x0 x1 x2 x3 x4 x5
    = combineRelu (val_main_v45 (F := Ideal) x0 x1 x2 x3 x4) (val_main_v17 (F := Ideal) x0 x2 x3 x4)
        (colOf (val_main_v12 (F := Ideal) x1)) (rowOf x5) := by
  funext i
  rw [val_main_v53_apply, comb52_eq, val_main_call0_v0_apply, val_main_call0_cst_apply]
  rfl

/-- The second layer's combination. -/
theorem comb89_eq : val_main_v89 (F := Ideal) x0 x1 x2 x3 x4 x5 x6 x7
    = combine (val_main_v82 (F := Ideal) x0 x1 x2 x3 x4 x5 x6) (val_main_v54 (F := Ideal) x0 x1 x2 x3 x4 x5 x6)
        (colOf (val_main_v12 (F := Ideal) x1)) (rowOf x7) := by
  unfold val_main_v89 val_main_v86 val_main_v85
  exact combine_stage x1 _ _ x7

end Stages

/-- The reference's result stage is the network of its arguments. -/
theorem ref_eq (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v89 (F := Ideal) x0 x1 x2 x3 x4 x5 x6 x7 = Cert.KernelIdeal.Hand.outK x0 x1 x2 x3 x4 x5 x6 x7 := by
  unfold Cert.KernelIdeal.Hand.outK Cert.KernelIdeal.Hand.layerLin Cert.KernelIdeal.Hand.layerRelu
  rw [comb89_eq, agg82_eq, dense54_eq, relu53_eq, agg45_eq, dense17_eq, dense16_eq, dinv_eq, norm_eq, deg_eq, src_eq,
    dst_eq]

end Cert.ReferenceIdeal.Layers

end
-- ==== Proof.lean ====
/-
  A two-layer graph convolution network on 100000 nodes and 1600000 edges: a dense layer on the node features
  (256 → 128), then twice a dense layer without bias (128 → 128), the aggregation of the result over the edges with
  the symmetric degree normalisation, and the combination  agg + z · (1 / deg) + bias,  the first time followed by the
  rectifier.  The kernel program runs the three dense layers and the two combinations as five calls over blocks of
  2000 rows and leaves the degrees and the aggregation to the host; the reference runs everything on the host.

  On the extended reals the two compute one function of the arguments.  A block of rows of a dense layer is the dense
  layer of that block of rows (the contraction runs over a whole row of x and a whole column of W, both inside the
  block); the kernel's product into a zero accumulator and the host's product are the same sum; a change of float
  format is the identity; a bias of zeros adds nothing (x + 0 = x for every extended real); the combinations are
  entry by entry the same operations in the same order; and the host parts are the same operations on both sides.
  No law is used that fails at an infinity, so the finiteness of the inputs is not needed.
-/
import proofs.«134892_j82660940579213_1_alg».proof.Defs
import proofs.«134892_j82660940579213_1_alg».proof.Proof.Gen.Kernel
import proofs.«134892_j82660940579213_1_alg».proof.Proof.Gen.Kernel.Frame
import proofs.«134892_j82660940579213_1_alg».proof.Proof.Gen.KernelIdeal
import proofs.«134892_j82660940579213_1_alg».proof.Proof.Gen.KernelIdeal.Frame
import proofs.«134892_j82660940579213_1_alg».proof.Proof.Gen.ReferenceIdeal
import proofs.«134892_j82660940579213_1_alg».proof.Proof.Gen.ReferenceIdeal.Run
import proofs.«134892_j82660940579213_1_alg».proof.Proof.Gen.ReferenceIdeal.Read
import proofs.«134892_j82660940579213_1_alg».proof.Proof.Gen.Pre_finite_inputs
import proofs.«134892_j82660940579213_1_alg».proof.Proof.KRun
import proofs.«134892_j82660940579213_1_alg».proof.Proof.KValue
import proofs.«134892_j82660940579213_1_alg».proof.Proof.RefLayers
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the network of the arguments in their result arrays. -/
theorem algebraic : Cert.algebraic_KernelIdeal_ReferenceIdeal := by
  intro m ρ m' ρ' _ hagree
  refine ⟨fun c => Cert.KernelIdeal.Hand.outK (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)) (m ((c.tc : Thread _ _).loc Cert.KernelIdeal.main_arg7)), ?_, ?_⟩
  · exact (θ_run Cert.KernelIdeal.defs _ _).mono
      (fun r h c => ⟨(h c).1.trans (Cert.KernelIdeal.Hand.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v89_eq, Cert.ReferenceIdeal.Layers.ref_eq]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
